-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S1x1x4096 : Shape := ⟨3, ![1, 1, 4096]⟩
abbrev S1x512x4096 : Shape := ⟨3, ![1, 512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x1x4096, .f32⟩
  | .local _ .vmem, ⟨3, _⟩ => ⟨S1x512x4096, .f32⟩
  | .local _ .vmem, ⟨4, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096_S1x1x4096 : S4096.ShapeCasts S1x1x4096
  inb_S1x512x4096_S1x512x4096_0_0_0 : ∀ a, (![0, 0, 0] : Fin 3 → Nat) a + S1x512x4096.size a ≤ S1x512x4096.size a
  h_S1x512x4096 : 0 < S1x512x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  broadcasts_S1x1x4096_S1x512x4096 : S1x1x4096.Broadcasts S1x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S1x1x4096.size a
  hwx0_1 : ∀ i : grid0.Coords, EltTy.bits .f32 = 32 ∨ (Rect.block (s := S1x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.ColumnScale.lean ====
/-
  The function both programs compute: an array `x` of shape [4, 4096, 4096] with every entry multiplied by the
  entry of a vector `d` of length 4096 that stands in the entry's column (its last coordinate) —
  `x · diag(d)` written entry by entry: `(x · diag(d))[b, r, c] = x[b, r, c] · d[c]`, since the diagonal
  matrix has only the one non-zero entry `d[c]` in its column `c`.
  Stated for any float instance: both sides perform the same single product per entry, so no law of the
  extended reals is needed to join them.
-/
import Idealize.ShloMosaic.Lib.ValueIdx

noncomputable section

namespace Cert.ColumnScale

open Idealize.ShloMosaic Idealize.ShloMosaic.ValueIdx

variable {F : FTy → Type} [FloatOps F]

/-- The shape of the scaled array and of the result. -/
abbrev Arr : Shape := ⟨3, ![4, 4096, 4096]⟩
/-- The shape of the vector of column factors. -/
abbrev Diag : Shape := ⟨1, ![4096]⟩

/-- The column of an entry of the array, as an index of the vector of factors. -/
abbrev col (i : Arr.Idx) : Diag.Idx := ix1 (n := 4096) (i 2)

/-- `x` with every column `c` multiplied by `d[c]`. -/
def scaled (x : Arr.Idx → Elt F .f32) (d : Diag.Idx → Elt F .f32) : Arr.Idx → Elt F .f32 :=
  fun i => FloatOps.mulf (x i) (d (col i))

theorem scaled_apply (x : Arr.Idx → Elt F .f32) (d : Diag.Idx → Elt F .f32) (i : Arr.Idx) :
    scaled x d i = FloatOps.mulf (x i) (d (col i)) := rfl

end Cert.ColumnScale

end
-- ==== Proof.ReferenceScaled.lean ====
/-
  The reference, read entry by entry: it broadcasts the vector of factors first to [1, 1, 4096] and then to
  [4, 4096, 4096] — entry [b, r, c] of the broadcast is `d[c]` — and multiplies the array by it entry by entry.
  So its result at [b, r, c] is `x[b, r, c] · d[c]`: the column scaling.
-/
import proofs.«109667_j75015898792222_1_alg».proof.Proof.Gen.ReferenceIdeal.Read
import proofs.«109667_j75015898792222_1_alg».proof.Proof.ColumnScale

noncomputable section

namespace Cert.ReferenceIdeal.Scaled

open Cert.ReferenceIdeal Cert.ReferenceIdeal.Read Idealize.ShloMosaic Idealize.ShloMosaic.ValueIdx

variable {F : FTy → Type} [FloatOps F]

/-- Through the two broadcasts an entry of the array reads the factor of its own column. -/
theorem factor_index (i : S4x4096x4096.Idx) : idx_main_v0 (idx_main_v1 i) = Cert.ColumnScale.col i :=
  funext fun a => match a with | ⟨0, _⟩ => rfl

/-- The reference's result is the column scaling of its arguments. -/
theorem result_eq (x0 : (⟨S4x4096x4096, .f32⟩ : BufTy).Contents (Elt F)) (x1 : (⟨S4096, .f32⟩ : BufTy).Contents (Elt F)) :
    val_main_v2 (F := F) x0 x1 = Cert.ColumnScale.scaled x0 x1 := by
  funext i
  rw [val_main_v2_apply, val_main_v1_apply, val_main_v0_apply, factor_index]
  rfl

end Cert.ReferenceIdeal.Scaled

end
-- ==== Proof.KernelBlocks.lean ====
/-
  The kernel, read block by block. The grid has 4 × 8 points; point (b, s) stages rows 512·s … 512·s + 511 of
  matrix `b` of the array (a [1, 512, 4096] block) and, at every point, the whole vector of factors, which the
  host has first reshaped to [1, 1, 4096]. The body multiplies the block by the vector broadcast along the rows:
  entry [0, r, c] of what it stores is `block[0, r, c] · d[c]`. The output window has the index map of the
  input window, so point (b, s) writes back exactly the rows it read: block (b, s) of the column scaling. The 32
  blocks tile the result array, so after the run the array is the column scaling of the two arguments.
-/
import proofs.«109667_j75015898792222_1_alg».proof.Proof.Gen.KernelIdeal.Value
import proofs.«109667_j75015898792222_1_alg».proof.Proof.ColumnScale
import Idealize.ShloMosaic.Lib.Pipeline.Value
import Idealize.ShloMosaic.Lib.StableHlo.Run

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-! ## The vector of factors as the region finds it -/

/-- The host's reshape: the region finds the vector of factors laid out as [1, 1, 4096]. -/
theorem factors_reshaped (c : Dev nD) :
    (V m c main_v0 : S1x1x4096.Idx → Elt F .f32)
      = shapeCast S1x1x4096 (m ((c : Thread nD τ).loc main_arg1)) shapeCasts_S4096_S1x1x4096 := by
  dsimp only [Gen.V, Gen.hostOps0]
  after_results
  rfl

/-- Entry [0, 0, c] of the reshaped vector is the factor `d[c]`: both sit at row-major position `c`. -/
theorem factors_at (c : Dev nD) (k : S1x1x4096.Idx) :
    (V m c main_v0 : S1x1x4096.Idx → Elt F .f32) k
      = (m ((c : Thread nD τ).loc main_arg1) : S4096.Idx → Elt F .f32) (ix1 (n := 4096) (k 2)) := by
  refine (congrFun (factors_reshaped m c) k).trans ?_
  refine shapeCast_apply _ _ k _ ?_
  show ((⟨1, ![4096]⟩ : Shape).rowMajor (ix1 (n := 4096) (k 2))).val = ((⟨3, ![1, 1, 4096]⟩ : Shape).rowMajor k).val
  rw [Shape.rowMajor_val_one, Shape.rowMajor_val_three]
  have h0 : (k 0).val < 1 := (k 0).isLt
  have h1 : (k 1).val < 1 := (k 1).isLt
  show (k 2).val = ((k 0).val * 1 + (k 1).val) * 4096 + (k 2).val
  omega

/-! ## One grid point -/

/-- What the body leaves in the output block: each entry of the staged block times the entry of the staged
    [1, 1, 4096] vector in the same column. -/
theorem body_at (x0 : Vec F S1x512x4096 .f32) (x1 : Vec F S1x1x4096 .f32) (y : S1x512x4096.Idx) :
    out0_2 x0 x1 y = FloatOps.mulf (x0 y) (x1 (ix2_1 y)) := by
  unfold out0_2
  rw [canon2_eq]
  show FloatOps.mulf (View.ld x0 r0_0 (ix2_0 y)) (View.ld x1 r0_1 (ix2_1 y)) = _
  rw [View.ld_unit_zero (S := S1x512x4096) zero_offsets, View.ld_unit_zero (S := S1x1x4096) zero_offsets]
  have hy0 : (y 0).val < 1 := (y 0).isLt
  have e : ix2_0 y = y := funext fun a => match a with
    | ⟨0, _⟩ => Fin.ext (by show 0 = (y 0).val; omega)
    | ⟨1, _⟩ => rfl
    | ⟨2, _⟩ => rfl
  rw [e]

/-! ## The grid -/

/-- The printed index maps, decided over the 32 grid points: the array's input window moves with the output
    window; the factors' window stays at block 0; the output's blocks are full width (last block index 0). -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = 0 ∧ win0_1.index t (1 : Fin 3) = 0 ∧ win0_1.index t (2 : Fin 3) = 0
    ∧ win0_2.index t (2 : Fin 3) = 0 :=
  (by decide +kernel : ∀ t : Fin grid0.N, _)

/-- Every pair (matrix, stripe of 512 rows) is some point's output block. -/
theorem every_block : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- WHAT POINT `t` WRITES BACK is block `t` of the column scaling of the two arguments. -/
theorem flushed_eq (c : Dev nD) (t : Fin cfg0.N) :
    (dats m 0 c).flushed 2 t = ((cfg0.win 2).blk t).view.read (Elt F)
      (Cert.ColumnScale.scaled (m ((c : Thread nD τ).loc main_arg0)) (m ((c : Thread nD τ).loc main_arg1))) := by
  rw [flushed2]
  obtain ⟨e0, e1, e2, f0, f1, f2, g2⟩ := index_facts t
  funext j
  show out0_2 (iblk m c 0 t) (iblk m c 1 t) j = Cert.ColumnScale.scaled _ _ (((cfg0.win 2).blk t).view.emb j)
  refine (body_at _ _ j).trans ?_
  rw [Cert.ColumnScale.scaled_apply]
  show FloatOps.mulf (V m c main_arg0 (((cfg0.win 0).blk t).view.emb j))
      (V m c main_v0 (((cfg0.win 1).blk t).view.emb (ix2_1 j))) = _
  rw [factors_at, V_main_arg0]
  have hj0 : (j 0).val < 1 := (j 0).isLt
  have hj1 : (j 1).val < 512 := (j 1).isLt
  have hj2 : (j 2).val < 4096 := (j 2).isLt
  -- the rows point `t` read are the rows it writes
  have rows : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 4096 + 1 * (j 2).val = win0_2.index t (2 : Fin 3) * 4096 + 1 * (j 2).val; omega
  -- the factor read at [0, 0, c] of the staged vector is the factor of the written entry's column
  have column : ix1 (n := 4096) ((((cfg0.win 1).blk t).view.emb (ix2_1 j)) 2)
      = Cert.ColumnScale.col (((cfg0.win 2).blk t).view.emb j) := by
    funext a
    match a with
    | ⟨0, _⟩ => exact Fin.ext (by
        show win0_1.index t (2 : Fin 3) * 4096 + 1 * (j 2).val = win0_2.index t (2 : Fin 3) * 4096 + 1 * (j 2).val
        omega)
  rw [rows, column]

/-! ## The whole array -/

/-- An index of the array is in point `t`'s block iff each coordinate is in the block's range on its axis. -/
theorem mem_block (t : Fin cfg0.N) (i : S4x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v1).slice (win0_2.rect t)).set ↔ _
  rw [View.set_slice_whole, Rect.mem_set_unit]
  exact Iff.rfl

/-- The blocks tile the array: entry [b, r, c] lies in the block of matrix `b`, stripe `r / 512`. -/
theorem covered (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := every_block ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-- THE RESULT ARRAY after the run is the column scaling of the two arguments. -/
theorem final (c : Dev nD) : (dats m 0 c).arrAt 2 cfg0.N
    = Cert.ColumnScale.scaled (m ((c : Thread nD τ).loc main_arg0)) (m ((c : Thread nD τ).loc main_arg1)) :=
  (dats m 0 c).arrAt_eq_of_cover 2 _ (fun t _ => flushed_eq m c t) covered

/-- The kernel's run, read: the result array at the column scaling, the arguments unchanged. -/
theorem run : θ_run defs (onTc (τ := τ) (main (F := F))) ⟨m, fun _ => 0, ρ⟩ fun r => ∀ c : Dev nD,
      r.2.mem ((c : Thread nD τ).loc main_v1)
        = Cert.ColumnScale.scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.lean ====
/-
  The certificate of a diagonal scaling: the kernel computes `x · diag(d)` for `x` of shape [4, 4096, 4096] and
  `d` of length 4096 as the entrywise product `x[b, r, c] · d[c]`, stripe by stripe over a 4 × 8 grid; the
  reference computes `x * d` with `d` broadcast over the leading axes, which is the same product entry by entry.
  Both programs perform exactly one multiplication per entry, of the same two numbers in the same order, so the
  results agree for any float instance, in particular on the extended reals; finiteness of the inputs is not used.
  The frames are the generated ones (the reference's is its generated run with the result dropped); the
  idealization rewrote nothing, so its preservation claim is trivial.
-/
import proofs.«109667_j75015898792222_1_alg».proof.Defs
import proofs.«109667_j75015898792222_1_alg».proof.Proof.Gen.Kernel
import proofs.«109667_j75015898792222_1_alg».proof.Proof.Gen.Kernel.Skeleton
import proofs.«109667_j75015898792222_1_alg».proof.Proof.Gen.Kernel.Launch
import proofs.«109667_j75015898792222_1_alg».proof.Proof.Gen.Kernel.Points
import proofs.«109667_j75015898792222_1_alg».proof.Proof.Gen.Kernel.Frame
import proofs.«109667_j75015898792222_1_alg».proof.Proof.Gen.KernelIdeal
import proofs.«109667_j75015898792222_1_alg».proof.Proof.Gen.KernelIdeal.Skeleton
import proofs.«109667_j75015898792222_1_alg».proof.Proof.Gen.KernelIdeal.Launch
import proofs.«109667_j75015898792222_1_alg».proof.Proof.Gen.KernelIdeal.Points
import proofs.«109667_j75015898792222_1_alg».proof.Proof.Gen.KernelIdeal.Frame
import proofs.«109667_j75015898792222_1_alg».proof.Proof.Gen.ReferenceIdeal
import proofs.«109667_j75015898792222_1_alg».proof.Proof.Gen.Pre_finite_inputs
import proofs.«109667_j75015898792222_1_alg».proof.Proof.Gen.KernelIdeal.Value
import proofs.«109667_j75015898792222_1_alg».proof.Proof.Gen.ReferenceIdeal.Run
import proofs.«109667_j75015898792222_1_alg».proof.Proof.Gen.ReferenceIdeal.Read
import proofs.«109667_j75015898792222_1_alg».proof.Proof.ColumnScale
import proofs.«109667_j75015898792222_1_alg».proof.Proof.ReferenceScaled
import proofs.«109667_j75015898792222_1_alg».proof.Proof.KernelBlocks
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference is three host operations; its run, with the result dropped, is its frame. -/
theorem frame_reference : Cert.frame_ReferenceIdeal :=
  fun m ρ _ => (θ_run Cert.ReferenceIdeal.defs _ _).mono (fun _ h c => (h c).2)
    (Cert.ReferenceIdeal.Value.run (F := Ideal) m ρ)

/-- On the extended reals both programs end with the column scaling of their (agreeing) arguments. -/
theorem algebraic : Cert.algebraic_KernelIdeal_ReferenceIdeal := by
  intro m ρ m' ρ' _ hagree
  refine ⟨fun c => Cert.ColumnScale.scaled (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scaled.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
